-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S16384x512 : Shape := ⟨2, ![16384, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S2048x512 .f32) (main_arg1 : FVec F S16384x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S2048x512 : Shape := ⟨2, ![2048, 512]⟩
abbrev S16384x512 : Shape := ⟨2, ![16384, 512]⟩
abbrev S1024x2048 : Shape := ⟨2, ![1024, 2048]⟩
abbrev S256x2048 : Shape := ⟨2, ![256, 2048]⟩
abbrev S2048 : Shape := ⟨1, ![2048]⟩
abbrev S2048x1 : Shape := ⟨2, ![2048, 1]⟩
abbrev S2048x2048 : Shape := ⟨2, ![2048, 2048]⟩
abbrev S128x16x2048 : Shape := ⟨3, ![128, 16, 2048]⟩
abbrev S128x2048 : Shape := ⟨2, ![128, 2048]⟩

abbrev nBuf : Space → Nat
  | .hbm => 3
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S16384x512, .f32⟩
  | .hbm, ⟨2, _⟩ => ⟨S1024x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S256x2048, .f32⟩
  | .local _ .vmem, ⟨6, _⟩ => ⟨S256x2048, .f32⟩
  | .local _ .vmem, ⟨7, _⟩ => ⟨S2048x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  shapeCasts_S2048x2048_S128x16x2048 : S2048x2048.ShapeCasts S128x16x2048
  reduces_S128x16x2048_S128x2048 : S128x16x2048.Reduces [1] S128x2048
  inb_S256x2048_S128x2048_0_0 : ∀ a, (![0, 0] : Fin 2 → Nat) a + S128x2048.size a ≤ S256x2048.size a
  h_S128x2048 : 0 < S128x2048.numel
  inb_S256x2048_S128x2048_128_0 : ∀ a, (![128, 0] : Fin 2 → Nat) a + S128x2048.size a ≤ S256x2048.size a
  dot_S2048x512_S2048x512_S2048x2048_1_1_0_0_n_n_wf : DotDims.WF S2048x512 S2048x512 S2048x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x512.size a
  hwx0_0 : ∀ i : grid0.Coords, EltTy.bits .f32 = 32 ∨ (Rect.block (s := S2048x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .f32 = 32 ∨ (Rect.block (s := S16384x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S1024x2048.size a
  hwx0_3 : ∀ i : grid0.Coords, EltTy.bits .f32 = 32 ∨ (Rect.block (s := S1024x2048) S256x2048.size (cc0_transform_3 i) (hinb0_3 i)).WholeWords (EltTy.packing .f32)

variable [Facts₀]

def dot_S2048x512_S2048x512_S2048x2048_1_1_0_0_n_n : DotDims S2048x512 S2048x512 S2048x2048 where
  lhsContracting := [1]
  rhsContracting := [1]
  lhsNonContracting := [0]
  rhsNonContracting := [0]
  lhsBatch := []
  rhsBatch := []
  wf := dot_S2048x512_S2048x512_S2048x2048_1_1_0_0_n_n_wf

abbrev win0_0 : Pipeline.Window sig grid0 :=
  Pipeline.Window.ofSpec (Memref.whole main_arg0) S2048x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S16384x512 : Shape := ⟨2, ![16384, 512]⟩
abbrev S_ : Shape := ⟨0, ![]⟩
abbrev S2048 : Shape := ⟨1, ![2048]⟩
abbrev S2048x1 : Shape := ⟨2, ![2048, 1]⟩
abbrev S512x2048 : Shape := ⟨2, ![512, 2048]⟩
abbrev S16384x2048 : Shape := ⟨2, ![16384, 2048]⟩
abbrev S1024x16x2048 : Shape := ⟨3, ![1024, 16, 2048]⟩
abbrev S1024x2048 : Shape := ⟨2, ![1024, 2048]⟩

abbrev nBuf : Space → Nat
  | .hbm => 18
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S16384x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x512, .f32⟩
  | .hbm, ⟨12, _⟩ => ⟨S2048x512, .f32⟩
  | .hbm, ⟨13, _⟩ => ⟨S512x2048, .f32⟩
  | .hbm, ⟨14, _⟩ => ⟨S16384x2048, .f32⟩
  | .hbm, ⟨15, _⟩ => ⟨S1024x16x2048, .f32⟩
  | .hbm, ⟨16, _⟩ => ⟨S_, .f32⟩
  | .hbm, ⟨17, _⟩ => ⟨S1024x2048, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  transposes_S2048x512_S512x2048_1_0 : S2048x512.Transposes [1, 0] S512x2048
  shapeCasts_S16384x2048_S1024x16x2048 : S16384x2048.ShapeCasts S1024x16x2048
  reducesTo_S1024x16x2048_S1024x2048_d1 : S1024x16x2048.ReducesTo [1] S1024x2048
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.K.Common.lean ====
/-
  What the frame of this program is stated over: the argument arrays as the kernel region finds them, each
  window's block of its array at a grid point, the one branch of the body in closed form (it is taken at the
  first grid point only), and the staging and scratch memrefs the body is called with.
-/
import proofs.«119591_g73735998537873_cont_9to1_m_286_38_alg».proof.Proof.Gen.Kernel.Launch
import proofs.«119591_g73735998537873_cont_9to1_m_286_38_alg».proof.Proof.Gen.Kernel.Skeleton
import proofs.«119591_g73735998537873_cont_9to1_m_286_38_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- Core `c`'s buffer contents when the region is entered: @main has no host operation before it, so they are
    the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place: an unfetched window's block
    index has not moved. The three input windows are uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: the point is the first. -/
abbrev cond0 (i : grid0.Coords) : Prop := (Scalar.cmpi .ne (Scalar.extui (Scalar.cmpi .eq (BitVec.ofNat 32 (i 0).val) 0#32)) 0#32) = 1#1
/-- It holds at point 0 only — decided over the four points. -/
theorem hcond0 : ∀ t : Fin cfg0.N, cond0 (grid0.coords t) ↔ t.val = 0 :=
  (by decide +kernel : ∀ t : Fin grid0.N, cond0 (grid0.coords t) ↔ t.val = 0)

/-- No window is idle at any point. -/
theorem liveAt : ∀ (w : Fin cfg0.W) (t : Fin cfg0.N), cfg0.idle w (grid0.coords t) = false := fun _ _ => rfl

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .f32 := win0_3.stage (cfg0.slots t 3)
abbrev hs3 (t : Fin cfg0.N) : (ms3 t).IsWhole := hstage0_3 ((cfg0.slots t 3).cast nbuf0_3)
/-- The scratch the kernel keeps the normalised queries in, from the first point to the last. -/
abbrev scM : Memref sig .tc .vmem S2048x512 .bf16 := Memref.whole cc0_scratch0
/-- One staging buffer of the output window, and the scratch, as views: contents are stated through them. -/
abbrev VO : View sig .tc .vmem S256x2048 .f32 := (Memref.whole cc0_stg3_0 : Memref sig .tc .vmem S256x2048 .f32).view
abbrev VS : View sig .tc .vmem S2048x512 .bf16 := scM.view

/-- The core's scoped buffers that are no staging buffer are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.K.RunA.lean ====
/-
  The body at the first grid point: the branch is taken, so the body normalises the query block into the scratch
  and then scores the two bank tiles against it. What it leaves in the output's staging buffer and in the scratch
  is recorded as the list of its stores, last first.
-/
import proofs.«119591_g73735998537873_cont_9to1_m_286_38_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole memrefs — the three inputs' at their contents, the output's and the scratch at anything — the body
    with its branch taken runs to a continuation that holds the inputs' as they were and the output's buffer and
    the scratch with the body's stores written over what they held. -/
noncomputable def kernelRunA (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 : Vec F S2048x512 .f32) (xa : Vec F S2048x512 .f32) (xb : Vec F S2048x512 .f32) :
    Σ' (L4 : List (View.Piece (Elt F) S256x2048 .f32)), { L5 : List (View.Piece (Elt F) S2048x512 .bf16) //
      ∀ (E : Set ℕ) (K : PUnit → sProp 𝕄),
        iprop(owns (c : Thread nD τ) arg1 fullShare x0 ∗ owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xa ∗ owns (c : Thread nD τ) arg3 fullShare xb
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__fused_kernel i arg1 harg1 arg2 harg2 arg3 harg3 arg4 harg4 arg5 harg5) K } := by
  refine ⟨?_, ?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.Kernel.Hand

end
-- ==== Proof.K.RunB.lean ====
/-
  The body at the later grid points: the branch is not taken, so the body only scores the two bank tiles against
  the normalised queries the scratch already holds, and leaves the scratch as it found it.
-/
import proofs.«119591_g73735998537873_cont_9to1_m_286_38_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole memrefs — the three inputs' and the scratch at their contents, the output's at anything — the body
    with its branch not taken runs to a continuation that holds the inputs' and the scratch as they were and the
    output's buffer with the body's stores written over what it held. -/
noncomputable def kernelRunB (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 : Vec F S2048x512 .f32) (xa : Vec F S2048x512 .f32) (xb : Vec F S2048x512 .f32) (xs : Vec F S2048x512 .bf16) :
    { L4 : List (View.Piece (Elt F) S256x2048 .f32) //
      ∀ (E : Set ℕ) (K : PUnit → sProp 𝕄),
        iprop(owns (c : Thread nD τ) arg1 fullShare x0 ∗ owns (c : Thread nD τ) arg2 fullShare xa ∗ owns (c : Thread nD τ) arg3 fullShare xb
            ∗ (∃ d, owns (c : Thread nD τ) arg4 fullShare d) ∗ owns (c : Thread nD τ) arg5 fullShare xs
            ∗ (iprop(owns (c : Thread nD τ) arg1 fullShare x0 ∗ owns (c : Thread nD τ) arg2 fullShare xa ∗ owns (c : Thread nD τ) arg3 fullShare xb
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := harg1.eq_unread hf1; obtain rfl := harg2.eq_unread hf2; obtain rfl := harg3.eq_unread hf3
    obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; isplitr; · ipureintro; exact harg5.read_unread _
    iexact H5

end Cert.Kernel.Hand

end
-- ==== Proof.K.Frame.lean ====
/-
  The frame's proof data and the body obligation.

  The pipeline has four grid points. At the first the body fills the scratch with the normalised queries; at every
  point it stores the scores of two bank tiles into the two halves of the output's staging buffer, which is written
  back after every point. So after point n the scratch holds what point 0 left in it, and the output's buffer what
  point n's two stores left. The two windows on the proxy bank each hold half of that array's share.
-/
import proofs.«119591_g73735998537873_cont_9to1_m_286_38_alg».proof.Proof.K.RunB
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output's buffer tile it: two half-height pieces. -/
theorem coverA4 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) (y : S256x2048.Idx) :
    ∃ pc ∈ (kernelRunA c i arg1 harg1 arg2 harg2 arg3 harg3 arg4 harg4 arg5 harg5 hc x0 xa xb).1, y ∈ pc.1.set :=
  View.cover_of_tiledL (kernelRunA c i arg1 harg1 arg2 harg2 arg3 harg3 arg4 harg4 arg5 harg5 hc x0 xa xb).1 S128x2048.size (by sl_kernel_rfl) y

/-- What the first point leaves in the output's buffer: its pieces read back. -/
def outA (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) : Vec F S256x2048 .f32 :=
  VO.read (Elt F) (VO.writes (Elt F) VO.junk (kernelRunA c i arg1 harg1 arg2 harg2 arg3 harg3 arg4 harg4 arg5 harg5 hc x0 xa xb).1)

/-- The first point's store into the scratch covers it. -/
theorem coverA5 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) (y : S2048x512.Idx) :
    ∃ pc ∈ (kernelRunA c i arg1 harg1 arg2 harg2 arg3 harg3 arg4 harg4 arg5 harg5 hc x0 xa xb).2.1, y ∈ pc.1.set :=
  View.cover_of_tiledL (kernelRunA c i arg1 harg1 arg2 harg2 arg3 harg3 arg4 harg4 arg5 harg5 hc x0 xa xb).2.1 S2048x512.size (by sl_kernel_rfl) y

/-- What the first point leaves in the scratch. -/
def soutA (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) : Vec F S2048x512 .bf16 :=
  VS.read (Elt F) (VS.writes (Elt F) VS.junk (kernelRunA c i arg1 harg1 arg2 harg2 arg3 harg3 arg4 harg4 arg5 harg5 hc x0 xa xb).2.1)

/-- A later point's two stores into the output's buffer tile it. -/
theorem coverB4 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 xa xb : Vec F S2048x512 .f32) (xs : Vec F S2048x512 .bf16) (y : S256x2048.Idx) :
    ∃ pc ∈ (kernelRunB c i arg1 harg1 arg2 harg2 arg3 harg3 arg4 harg4 arg5 harg5 hc x0 xa xb xs).1, y ∈ pc.1.set :=
  View.cover_of_tiledL (kernelRunB c i arg1 harg1 arg2 harg2 arg3 harg3 arg4 harg4 arg5 harg5 hc x0 xa xb xs).1 S128x2048.size (by sl_kernel_rfl) y

/-- What a later point leaves in the output's buffer. -/
def outB (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 xa xb : Vec F S2048x512 .f32) (xs : Vec F S2048x512 .bf16) : Vec F S256x2048 .f32 :=
  VO.read (Elt F) (VO.writes (Elt F) VO.junk (kernelRunB c i arg1 harg1 arg2 harg2 arg3 harg3 arg4 harg4 arg5 harg5 hc x0 xa xb xs).1)

/-! ## Point by point -/

/-- What the output's staging buffer and the scratch hold after the body at position `n`: at the first point what
    the case with the branch taken leaves; afterwards the other case's output over the scratch the point before
    left, and that scratch unchanged. -/
def outsAt (c : Dev nD) : (n : ℕ) → n < cfg0.N → Vec F S256x2048 .f32 × Vec F S2048x512 .bf16
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcond0 ⟨0, hn⟩).mpr rfl) (iblk m c 0 ⟨0, hn⟩) (iblk m c 1 ⟨0, hn⟩) (iblk m c 2 ⟨0, hn⟩),
      soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcond0 ⟨0, hn⟩).mpr rfl) (iblk m c 0 ⟨0, hn⟩) (iblk m c 1 ⟨0, hn⟩) (iblk m c 2 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => absurd ((hcond0 ⟨n + 1, hn⟩).mp h) (Nat.succ_ne_zero n)) (iblk m c 0 ⟨n + 1, hn⟩) (iblk m c 1 ⟨n + 1, hn⟩) (iblk m c 2 ⟨n + 1, hn⟩) (outsAt c n (Nat.lt_of_succ_lt hn)).2,
      (outsAt c n (Nat.lt_of_succ_lt hn)).2)

theorem outsAt_A (c : Dev nD) (t : Fin cfg0.N) (h0 : t.val = 0) :
    outsAt m c t.val t.isLt = (outA c (grid0.coords t) (ms0 t) (hs0 t) (ms1 t) (hs1 t) (ms2 t) (hs2 t) (ms3 t) (hs3 t) scM (Memref.isWhole_whole _) ((hcond0 t).mpr h0) (iblk m c 0 t) (iblk m c 1 t) (iblk m c 2 t),
      soutA c (grid0.coords t) (ms0 t) (hs0 t) (ms1 t) (hs1 t) (ms2 t) (hs2 t) (ms3 t) (hs3 t) scM (Memref.isWhole_whole _) ((hcond0 t).mpr h0) (iblk m c 0 t) (iblk m c 1 t) (iblk m c 2 t)) := by
  obtain ⟨n, hn⟩ := t
  cases n with
  | zero => exact rfl
  | succ n => exact absurd h0 (Nat.succ_ne_zero n)

theorem outsAt_B (c : Dev nD) (t : Fin cfg0.N) (h0 : ¬t.val = 0) :
    outsAt m c t.val t.isLt = (outB c (grid0.coords t) (ms0 t) (hs0 t) (ms1 t) (hs1 t) (ms2 t) (hs2 t) (ms3 t) (hs3 t) scM (Memref.isWhole_whole _) (fun h => h0 ((hcond0 t).mp h)) (iblk m c 0 t) (iblk m c 1 t) (iblk m c 2 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch at anything; afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data of the pipeline on core `c`: the arrays as the region finds them; after the body at point `t`
    each input's buffer at its block and the output's at `outsAt`; the invariant the scratch; nothing owed; the
    query array and the result held whole, the proxy bank's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt 0 t], after_0]
theorem leaves_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt 1 t], after_1]
theorem leaves_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt 2 t], after_2]
theorem leaves_3 (c : Dev nD) (t : Fin cfg0.N) : (dats m 0 c).leavesExact 3 t = owns (c : Thread nD τ) (ms3 t) fullShare ((outsAt m c t.val t.isLt).1) := by
  rw [show (dats m 0 c).leavesExact 3 t = owns (c : Thread nD τ) (ms3 t) fullShare ((dats m 0 c).after 3 t) from by
    unfold Dat.leavesExact; rw [liveAt 3 t], after_3]

set_option maxHeartbeats 4800000 in
/-- The body at any point: the inputs' buffers hold their blocks; at the first point the scratch holds anything and
    the case with the branch taken runs, at a later point the scratch holds what the point before left and the other
    case runs; either way the scratch is handed back at this point's contents and the output's buffer at its two
    stores read back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2, leaves_3]
  rw [show (dats m 0 c).owesAt () t.succ = (dats m 0 c).owesAt () t.castSucc from rfl]
  rw [show (dats m 0 c).Φ t.succ = PhiS m c (t.val + 1) t.isLt from rfl, PhiS_succ]
  by_cases h0 : t.val = 0
  · rw [outsAt_A m c t h0]
    unfold outA soutA; (try dsimp only)
    rw [PhiS_castSucc m c t, PhiS_zero m c _ _ h0]
    iintro ⟨HS, Ho, ⟨%d0, H0⟩, ⟨%d1, H1⟩, ⟨%d2, H2⟩, ⟨%d3, H3⟩⟩
    iapply ((kernelRunA c (grid0.coords t) _ _ _ _ _ _ _ _ _ _ ((hcond0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e4, H4⟩, ⟨%e5, H5⟩⟩
    isplitl [H5]
    · unfold owns; iexists _; isplitr
      swap; · iexact H5
      ipureintro; exact View.read_writes_of_cover _ _ _ _ _ (coverA5 c _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H4
    ipureintro; exact View.read_writes_of_cover _ _ _ _ _ (coverA4 c _ _ _ _ _ _ _ _ _ _ _ _ _ _ _)
  · rw [outsAt_B m c t h0]
    unfold outB; (try dsimp only)
    rw [PhiS_castSucc m c t, PhiS_pos m c _ _ h0]
    iintro ⟨HS, Ho, ⟨%d0, H0⟩, ⟨%d1, H1⟩, ⟨%d2, H2⟩, ⟨%d3, H3⟩⟩
    iapply ((kernelRunB c (grid0.coords t) _ _ _ _ _ _ _ _ _ _ (fun h => h0 ((hcond0 t).mp h)) (iblk m c 0 t) (iblk m c 1 t) (iblk m c 2 t) _).2 Set.univ _)
    isplitl [H0]; · iexact H0
    isplitl [H1]; · iexact H1
    isplitl [H2]; · iexact H2
    isplitl [H3]; · iexists _; iexact H3
    isplitl [HS]; · iexact HS
    iintro ⟨H0, H1, H2, ⟨%e4, H4⟩, HS⟩
    isplitl [HS]; · iexact HS
    isplitl [Ho]; · iexact Ho
    isplitl [H0]; · iexact H0
    isplitl [H1]; · iexact H1
    isplitl [H2]; · iexact H2
    unfold owns; iexists _; isplitr
    swap; · iexact H4
    ipureintro; exact View.read_writes_of_cover _ _ _ _ _ (coverB4 c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch: from the body obligation to the run of the whole program, and the frame read off it.

  The proxy bank is handed to the kernel through two windows. Its buffer, whole at launch, is dealt between them
  half a share each, the contents the same; the query array and the result array go to their one window whole.
  The kernel has no semaphore of its own, and its only scoped buffer besides the staging buffers is the scratch,
  which the invariant takes at entry at whatever it holds and gives back at the end.
-/
import proofs.«119591_g73735998537873_cont_9to1_m_286_38_alg».proof.Proof.K.Frame
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one: the query array, the proxy bank, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_arg1) ↦{fullShare} V m c main_arg1)
          ∗ (((c : Thread nD τ).loc main_v0) ↦{fullShare} V m c main_v0)) :=
  bigSep_eq_bigSepL_of_eq [main_arg0, main_arg1, main_v0] (by decide) (by decide) _

/-- The buffers behind the windows' arrays, whole at the launch contents, are the pipeline's arrays at entry:
    the bank's share split in two. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [bigSep_W0]
  simp only [View.set_whole]
  rw [show (dats m 0 c).share 0 = fullShare from rfl, show (dats m 0 c).share 1 = fullShare.left from rfl,
    show (dats m 0 c).share 2 = fullShare.right from rfl, show (dats m 0 c).share 3 = fullShare from rfl]
  refine (sep_mono_right (sep_mono_left (pointsTo_share (PosShare.mem_left_op_right fullShare)).1)).trans ?_
  iintro ⟨H0, ⟨H1, H2⟩, H3⟩
  isplitl [H0]; · iexact H0
  isplitl [H1]; · iexact H1
  isplitl [H2]; · iexact H2
  iexact H3

/-- What the launch hands the region of the scoped buffers is the invariant before the first point, -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest_scratch]
  iintro ⟨-, H⟩; iexact H

/-- and after the last point the invariant gives it back, the scratch's contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), scopedRest_scratch]
  iintro H; isplitr; · iempintro
  iexists _; iexact H

/-- At the compiled mesh, for any float values, from any memory with zero counters: every weakly fair execution of
    @main terminates, and in every final state each window's array holds what the write-backs of the proof data
    leave in it. -/
theorem run_main : θ_run defs (onTc (τ := τ) (main (F := F))) (s₀ m ρ) (fun r => ∀ (c : Dev nD) (w : Fin cfg0.W),
    r.2.mem ((cfg0.spec w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The frame: the program runs to the end, faults nowhere and leaves its two argument arrays as they were — an
    input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
      (h c 1).trans (((dats m 0 c).arrAt_in 1 rfl _).trans (A_eq m c 1))⟩) (run_main m ρ)

/-- The same run with the result array named: what the four write-backs leave in it. -/
theorem run_value : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c 3, (h c 0).trans (((dats m 0 c).arrAt_in 0 rfl _).trans (A_eq m c 0)),
      (h c 1).trans (((dats m 0 c).arrAt_in 1 rfl _).trans (A_eq m c 1))⟩) (run_main m ρ)

end Cert.Kernel.Hand

end
-- ==== Proof.KI.Common.lean ====
/-
  What the frame of this program is stated over: the argument arrays as the kernel region finds them, each
  window's block of its array at a grid point, the one branch of the body in closed form (it is taken at the
  first grid point only), and the staging and scratch memrefs the body is called with.
-/
import proofs.«119591_g73735998537873_cont_9to1_m_286_38_alg».proof.Proof.Gen.KernelIdeal.Launch
import proofs.«119591_g73735998537873_cont_9to1_m_286_38_alg».proof.Proof.Gen.KernelIdeal.Skeleton
import proofs.«119591_g73735998537873_cont_9to1_m_286_38_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- Core `c`'s buffer contents when the region is entered: @main has no host operation before it, so they are
    the launch contents. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the entry contents and whose body leaves the block in place: an unfetched window's block
    index has not moved. The three input windows are uncut and never idle. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The condition of the body's one branch, from the grid coordinate: the point is the first. -/
abbrev cond0 (i : grid0.Coords) : Prop := (Scalar.cmpi .ne (Scalar.extui (Scalar.cmpi .eq (BitVec.ofNat 32 (i 0).val) 0#32)) 0#32) = 1#1
/-- It holds at point 0 only — decided over the four points. -/
theorem hcond0 : ∀ t : Fin cfg0.N, cond0 (grid0.coords t) ↔ t.val = 0 :=
  (by decide +kernel : ∀ t : Fin grid0.N, cond0 (grid0.coords t) ↔ t.val = 0)

/-- No window is idle at any point. -/
theorem liveAt : ∀ (w : Fin cfg0.W) (t : Fin cfg0.N), cfg0.idle w (grid0.coords t) = false := fun _ _ => rfl

/-! ## The memrefs the body is called with -/

abbrev ms0 (t : Fin cfg0.N) : Memref sig .tc .vmem S2048x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S2048x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x2048 .f32 := win0_3.stage (cfg0.slots t 3)
abbrev hs3 (t : Fin cfg0.N) : (ms3 t).IsWhole := hstage0_3 ((cfg0.slots t 3).cast nbuf0_3)
/-- The scratch the kernel keeps the normalised queries in, from the first point to the last. -/
abbrev scM : Memref sig .tc .vmem S2048x512 .bf16 := Memref.whole cc0_scratch0
/-- One staging buffer of the output window, and the scratch, as views: contents are stated through them. -/
abbrev VO : View sig .tc .vmem S256x2048 .f32 := (Memref.whole cc0_stg3_0 : Memref sig .tc .vmem S256x2048 .f32).view
abbrev VS : View sig .tc .vmem S2048x512 .bf16 := scM.view

/-- The core's scoped buffers that are no staging buffer are the scratch, owned at some contents. -/
theorem scopedRest_scratch (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunA.lean ====
/-
  The body at the first grid point: the branch is taken, so the body normalises the query block into the scratch
  and then scores the two bank tiles against it. What it leaves in the output's staging buffer and in the scratch
  is recorded as the list of its stores, last first.
-/
import proofs.«119591_g73735998537873_cont_9to1_m_286_38_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole memrefs — the three inputs' at their contents, the output's and the scratch at anything — the body
    with its branch taken runs to a continuation that holds the inputs' as they were and the output's buffer and
    the scratch with the body's stores written over what they held. -/
noncomputable def kernelRunA (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 : Vec F S2048x512 .f32) (xa : Vec F S2048x512 .f32) (xb : Vec F S2048x512 .f32) :
    Σ' (L4 : List (View.Piece (Elt F) S256x2048 .f32)), { L5 : List (View.Piece (Elt F) S2048x512 .bf16) //
      ∀ (E : Set ℕ) (K : PUnit → sProp 𝕄),
        iprop(owns (c : Thread nD τ) arg1 fullShare x0 ∗ owns (c : Thread nD τ) arg2 fullShare xa ∗ owns (c : Thread nD τ) arg3 fullShare xb
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xa ∗ owns (c : Thread nD τ) arg3 fullShare xb
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)) -∗ K ⟨⟩))
          ⊢ wp frame (wpE (defs₀ (F := F)) Variants.none c none) E (cc0__fused_kernel i arg1 harg1 arg2 harg2 arg3 harg3 arg4 harg4 arg5 harg5) K } := by
  refine ⟨?_, ?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%d4, %f4, -, H4⟩, ⟨%d5, %f5, -, H5⟩, Hk⟩
    obtain rfl := harg1.eq_unread hf1; obtain rfl := harg2.eq_unread hf2; obtain rfl := harg3.eq_unread hf3
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact H5

end Cert.KernelIdeal.Hand

end
-- ==== Proof.KI.RunB.lean ====
/-
  The body at the later grid points: the branch is not taken, so the body only scores the two bank tiles against
  the normalised queries the scratch already holds, and leaves the scratch as it found it.
-/
import proofs.«119591_g73735998537873_cont_9to1_m_286_38_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- On whole memrefs — the three inputs' and the scratch at their contents, the output's at anything — the body
    with its branch not taken runs to a continuation that holds the inputs' and the scratch as they were and the
    output's buffer with the body's stores written over what it held. -/
noncomputable def kernelRunB (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 : Vec F S2048x512 .f32) (xa : Vec F S2048x512 .f32) (xb : Vec F S2048x512 .f32) (xs : Vec F S2048x512 .bf16) :
    { L4 : List (View.Piece (Elt F) S256x2048 .f32) //
      ∀ (E : Set ℕ) (K : PUnit → sProp 𝕄),
        iprop(owns (c : Thread nD τ) arg1 fullShare x0 ∗ owns (c : Thread nD τ) arg2 fullShare xa ∗ owns (c : Thread nD τ) arg3 fullShare xb
            ∗ (∃ d, owns (c : Thread nD τ) arg4 fullShare d) ∗ owns (c : Thread nD τ) arg5 fullShare xs
            ∗ (iprop(owns (c : Thread nD τ) arg1 fullShare x0 ∗ owns (c : Thread nD τ) arg2 fullShare xa ∗ owns (c : Thread nD τ) arg3 fullShare xb
                ∗ (∃ f, arg4.view.loc (c : Thread nD τ) ↦[arg4.view.set]{fullShare} arg4.view.writes (Elt F) f L4)
                ∗ owns (c : Thread nD τ) arg5 fullShare xs) -∗ K ⟨⟩))
          ⊢ wp frame (wpE (defs₀ (F := F)) Variants.none c none) E (cc0__fused_kernel i arg1 harg1 arg2 harg2 arg3 harg3 arg4 harg4 arg5 harg5) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%d4, %f4, -, H4⟩, ⟨%f5, %hf5, H5⟩, Hk⟩
    obtain rfl := harg1.eq_unread hf1; obtain rfl := harg2.eq_unread hf2; obtain rfl := harg3.eq_unread hf3
    obtain rfl := harg5.eq_unread hf5
    sl_exec (disch := exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; isplitr; · ipureintro; exact harg5.read_unread _
    iexact H5

end Cert.KernelIdeal.Hand

end
-- ==== Proof.KI.Frame.lean ====
/-
  The frame's proof data and the body obligation.

  The pipeline has four grid points. At the first the body fills the scratch with the normalised queries; at every
  point it stores the scores of two bank tiles into the two halves of the output's staging buffer, which is written
  back after every point. So after point n the scratch holds what point 0 left in it, and the output's buffer what
  point n's two stores left. The two windows on the proxy bank each hold half of that array's share.
-/
import proofs.«119591_g73735998537873_cont_9to1_m_286_38_alg».proof.Proof.KI.RunB
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point's two stores into the output's buffer tile it: two half-height pieces. -/
theorem coverA4 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) (y : S256x2048.Idx) :
    ∃ pc ∈ (kernelRunA c i arg1 harg1 arg2 harg2 arg3 harg3 arg4 harg4 arg5 harg5 hc x0 xa xb).1, y ∈ pc.1.set :=
  View.cover_of_tiledL (kernelRunA c i arg1 harg1 arg2 harg2 arg3 harg3 arg4 harg4 arg5 harg5 hc x0 xa xb).1 S128x2048.size (by sl_kernel_rfl) y

/-- What the first point leaves in the output's buffer: its pieces read back. -/
def outA (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) : Vec F S256x2048 .f32 :=
  VO.read (Elt F) (VO.writes (Elt F) VO.junk (kernelRunA c i arg1 harg1 arg2 harg2 arg3 harg3 arg4 harg4 arg5 harg5 hc x0 xa xb).1)

/-- The first point's store into the scratch covers it. -/
theorem coverA5 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) (y : S2048x512.Idx) :
    ∃ pc ∈ (kernelRunA c i arg1 harg1 arg2 harg2 arg3 harg3 arg4 harg4 arg5 harg5 hc x0 xa xb).2.1, y ∈ pc.1.set :=
  View.cover_of_tiledL (kernelRunA c i arg1 harg1 arg2 harg2 arg3 harg3 arg4 harg4 arg5 harg5 hc x0 xa xb).2.1 S2048x512.size (by sl_kernel_rfl) y

/-- What the first point leaves in the scratch. -/
def soutA (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) : Vec F S2048x512 .bf16 :=
  VS.read (Elt F) (VS.writes (Elt F) VS.junk (kernelRunA c i arg1 harg1 arg2 harg2 arg3 harg3 arg4 harg4 arg5 harg5 hc x0 xa xb).2.1)

/-- A later point's two stores into the output's buffer tile it. -/
theorem coverB4 (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 xa xb : Vec F S2048x512 .f32) (xs : Vec F S2048x512 .bf16) (y : S256x2048.Idx) :
    ∃ pc ∈ (kernelRunB c i arg1 harg1 arg2 harg2 arg3 harg3 arg4 harg4 arg5 harg5 hc x0 xa xb xs).1, y ∈ pc.1.set :=
  View.cover_of_tiledL (kernelRunB c i arg1 harg1 arg2 harg2 arg3 harg3 arg4 harg4 arg5 harg5 hc x0 xa xb xs).1 S128x2048.size (by sl_kernel_rfl) y

/-- What a later point leaves in the output's buffer. -/
def outB (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 xa xb : Vec F S2048x512 .f32) (xs : Vec F S2048x512 .bf16) : Vec F S256x2048 .f32 :=
  VO.read (Elt F) (VO.writes (Elt F) VO.junk (kernelRunB c i arg1 harg1 arg2 harg2 arg3 harg3 arg4 harg4 arg5 harg5 hc x0 xa xb xs).1)

/-! ## Point by point -/

/-- What the output's staging buffer and the scratch hold after the body at position `n`: at the first point what
    the case with the branch taken leaves; afterwards the other case's output over the scratch the point before
    left, and that scratch unchanged. -/
def outsAt (c : Dev nD) : (n : ℕ) → n < cfg0.N → Vec F S256x2048 .f32 × Vec F S2048x512 .bf16
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcond0 ⟨0, hn⟩).mpr rfl) (iblk m c 0 ⟨0, hn⟩) (iblk m c 1 ⟨0, hn⟩) (iblk m c 2 ⟨0, hn⟩),
      soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((hcond0 ⟨0, hn⟩).mpr rfl) (iblk m c 0 ⟨0, hn⟩) (iblk m c 1 ⟨0, hn⟩) (iblk m c 2 ⟨0, hn⟩))
  | n + 1, hn => (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => absurd ((hcond0 ⟨n + 1, hn⟩).mp h) (Nat.succ_ne_zero n)) (iblk m c 0 ⟨n + 1, hn⟩) (iblk m c 1 ⟨n + 1, hn⟩) (iblk m c 2 ⟨n + 1, hn⟩) (outsAt c n (Nat.lt_of_succ_lt hn)).2,
      (outsAt c n (Nat.lt_of_succ_lt hn)).2)

theorem outsAt_A (c : Dev nD) (t : Fin cfg0.N) (h0 : t.val = 0) :
    outsAt m c t.val t.isLt = (outA c (grid0.coords t) (ms0 t) (hs0 t) (ms1 t) (hs1 t) (ms2 t) (hs2 t) (ms3 t) (hs3 t) scM (Memref.isWhole_whole _) ((hcond0 t).mpr h0) (iblk m c 0 t) (iblk m c 1 t) (iblk m c 2 t),
      soutA c (grid0.coords t) (ms0 t) (hs0 t) (ms1 t) (hs1 t) (ms2 t) (hs2 t) (ms3 t) (hs3 t) scM (Memref.isWhole_whole _) ((hcond0 t).mpr h0) (iblk m c 0 t) (iblk m c 1 t) (iblk m c 2 t)) := by
  obtain ⟨n, hn⟩ := t
  cases n with
  | zero => exact rfl
  | succ n => exact absurd h0 (Nat.succ_ne_zero n)

theorem outsAt_B (c : Dev nD) (t : Fin cfg0.N) (h0 : ¬t.val = 0) :
    outsAt m c t.val t.isLt = (outB c (grid0.coords t) (ms0 t) (hs0 t) (ms1 t) (hs1 t) (ms2 t) (hs2 t) (ms3 t) (hs3 t) scM (Memref.isWhole_whole _) (fun h => h0 ((hcond0 t).mp h)) (iblk m c 0 t) (iblk m c 1 t) (iblk m c 2 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch at anything; afterwards at what
    the point before left in it. -/
def PhiS (c : Dev nD) : (n : ℕ) → n ≤ cfg0.N → sProp 𝕄
  | 0, _ => iprop(∃ d, owns (c : Thread nD τ) scM fullShare d)
  | n + 1, hn => owns (c : Thread nD τ) scM fullShare ((outsAt m c n hn).2)

theorem PhiS_zero (c : Dev nD) (n : ℕ) (h : n ≤ cfg0.N) (hz : n = 0) :
    PhiS m c n h = iprop(∃ d, owns (c : Thread nD τ) scM fullShare d) := by
  subst hz; rfl

theorem PhiS_succ (c : Dev nD) (n : ℕ) (hn : n < cfg0.N) :
    PhiS m c (n + 1) hn = owns (c : Thread nD τ) scM fullShare ((outsAt m c n hn).2) := rfl

theorem PhiS_pos (c : Dev nD) (n : ℕ) (h : n ≤ cfg0.N) (hz : n ≠ 0) :
    PhiS m c n h = owns (c : Thread nD τ) scM fullShare ((outsAt m c (n - 1) (by omega)).2) := by
  cases n with
  | zero => exact absurd rfl hz
  | succ n => rfl

/-! ## The proof data -/

/-- The proof data of the pipeline on core `c`: the arrays as the region finds them; after the body at point `t`
    each input's buffer at its block and the output's at `outsAt`; the invariant the scratch; nothing owed; the
    query array and the result held whole, the proxy bank's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = (outsAt m c t.val t.isLt).1 := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves_0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt 0 t], after_0]
theorem leaves_1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt 1 t], after_1]
theorem leaves_2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt 2 t], after_2]
theorem leaves_3 (c : Dev nD) (t : Fin cfg0.N) : (dats m 0 c).leavesExact 3 t = owns (c : Thread nD τ) (ms3 t) fullShare ((outsAt m c t.val t.isLt).1) := by
  rw [show (dats m 0 c).leavesExact 3 t = owns (c : Thread nD τ) (ms3 t) fullShare ((dats m 0 c).after 3 t) from by
    unfold Dat.leavesExact; rw [liveAt 3 t], after_3]

set_option maxHeartbeats 4800000 in
/-- The body at any point: the inputs' buffers hold their blocks; at the first point the scratch holds anything and
    the case with the branch taken runs, at a later point the scratch holds what the point before left and the other
    case runs; either way the scratch is handed back at this point's contents and the output's buffer at its two
    stores read back. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, leaves_0, leaves_1, leaves_2, leaves_3]
  rw [show (dats m 0 c).owesAt () t.succ = (dats m 0 c).owesAt () t.castSucc from rfl]
  rw [show (dats m 0 c).Φ t.succ = PhiS m c (t.val + 1) t.isLt from rfl, PhiS_succ]
  by_cases h0 : t.val = 0
  · rw [outsAt_A m c t h0]
    unfold outA soutA; (try dsimp only)
    rw [PhiS_castSucc m c t, PhiS_zero m c _ _ h0]
    iintro ⟨HS, Ho, ⟨%d0, H0⟩, ⟨%d1, H1⟩, ⟨%d2, H2⟩, ⟨%d3, H3⟩⟩
    iapply ((kernelRunA c (grid0.coords t) _ _ _ _ _ _ _ _ _ _ ((hcond0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS]; · iexact HS
    iintro ⟨H0, H1, H2, ⟨%e4, H4⟩, ⟨%e5, H5⟩⟩
    isplitl [H5]
    · unfold owns; iexists _; isplitr
      swap; · iexact H5
      ipureintro; exact View.read_writes_of_cover _ _ _ _ _ (coverA5 c _ _ _ _ _ _ _ _ _ _ _ _ _ _ _)
    isplitl [Ho]; · iexact Ho
    isplitl [H0]; · iexact H0
    isplitl [H1]; · iexact H1
    isplitl [H2]; · iexact H2
    unfold owns; iexists _; isplitr
    swap; · iexact H4
    ipureintro; exact View.read_writes_of_cover _ _ _ _ _ (coverA4 c _ _ _ _ _ _ _ _ _ _ _ _ _ _ _)
  · rw [outsAt_B m c t h0]
    unfold outB; (try dsimp only)
    rw [PhiS_castSucc m c t, PhiS_pos m c _ _ h0]
    iintro ⟨HS, Ho, ⟨%d0, H0⟩, ⟨%d1, H1⟩, ⟨%d2, H2⟩, ⟨%d3, H3⟩⟩
    iapply ((kernelRunB c (grid0.coords t) _ _ _ _ _ _ _ _ _ _ (fun h => h0 ((hcond0 t).mp h)) (iblk m c 0 t) (iblk m c 1 t) (iblk m c 2 t) _).2 Set.univ _)
    isplitl [H0]; · iexact H0
    isplitl [H1]; · iexact H1
    isplitl [H2]; · iexact H2
    isplitl [H3]; · iexists _; iexact H3
    isplitl [HS]; · iexact HS
    iintro ⟨H0, H1, H2, ⟨%e4, H4⟩, HS⟩
    isplitl [HS]; · iexact HS
    isplitl [Ho]; · iexact Ho
    isplitl [H0]; · iexact H0
    isplitl [H1]; · iexact H1
    isplitl [H2]; · iexact H2
    unfold owns; iexists _; isplitr
    swap; · iexact H4
    ipureintro; exact View.read_writes_of_cover _ _ _ _ _ (coverB4 c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch: from the body obligation to the run of the whole program, and the frame read off it.

  The proxy bank is handed to the kernel through two windows. Its buffer, whole at launch, is dealt between them
  half a share each, the contents the same; the query array and the result array go to their one window whole.
  The kernel has no semaphore of its own, and its only scoped buffer besides the staging buffers is the scratch,
  which the invariant takes at entry at whatever it holds and gives back at the end.
-/
import proofs.«119591_g73735998537873_cont_9to1_m_286_38_alg».proof.Proof.KI.Frame
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The distinct buffers behind the windows' arrays, one by one: the query array, the proxy bank, the result. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_arg1) ↦{fullShare} V m c main_arg1)
          ∗ (((c : Thread nD τ).loc main_v0) ↦{fullShare} V m c main_v0)) :=
  bigSep_eq_bigSepL_of_eq [main_arg0, main_arg1, main_v0] (by decide) (by decide) _

/-- The buffers behind the windows' arrays, whole at the launch contents, are the pipeline's arrays at entry:
    the bank's share split in two. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs_eq]
  unfold Dat.arrays
  rw [bigSep_W0]
  simp only [View.set_whole]
  rw [show (dats m 0 c).share 0 = fullShare from rfl, show (dats m 0 c).share 1 = fullShare.left from rfl,
    show (dats m 0 c).share 2 = fullShare.right from rfl, show (dats m 0 c).share 3 = fullShare from rfl]
  refine (sep_mono_right (sep_mono_left (pointsTo_share (PosShare.mem_left_op_right fullShare)).1)).trans ?_
  iintro ⟨H0, ⟨H1, H2⟩, H3⟩
  isplitl [H0]; · iexact H0
  isplitl [H1]; · iexact H1
  isplitl [H2]; · iexact H2
  iexact H3

/-- What the launch hands the region of the scoped buffers is the invariant before the first point, -/
theorem hin (c : Dev nD) : iprop(emp ∗ Pipeline.scopedRest spec0 c) ⊢ (dats m 0 c).Φ 0 := by
  rw [show (dats m 0 c).Φ 0 = PhiS m c 0 (Nat.zero_le _) from rfl, PhiS_zero m c 0 _ rfl, scopedRest_scratch]
  iintro ⟨-, H⟩; iexact H

/-- and after the last point the invariant gives it back, the scratch's contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 4 := N_0; omega), scopedRest_scratch]
  iintro H; isplitr; · iempintro
  iexists _; iexact H

/-- At the compiled mesh, for any float values, from any memory with zero counters: every weakly fair execution of
    @main terminates, and in every final state each window's array holds what the write-backs of the proof data
    leave in it. -/
theorem run_main : θ_run defs (onTc (τ := τ) (main (F := F))) (s₀ m ρ) (fun r => ∀ (c : Dev nD) (w : Fin cfg0.W),
    r.2.mem ((cfg0.spec w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := fun c b => m ((c : Thread nD τ).loc b))
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The frame: the program runs to the end, faults nowhere and leaves its two argument arrays as they were — an
    input window's array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
      (h c 1).trans (((dats m 0 c).arrAt_in 1 rfl _).trans (A_eq m c 1))⟩) (run_main m ρ)

/-- The same run with the result array named: what the four write-backs leave in it. -/
theorem run_value : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c 3, (h c 0).trans (((dats m 0 c).arrAt_in 0 rfl _).trans (A_eq m c 0)),
      (h c 1).trans (((dats m 0 c).arrAt_in 1 rfl _).trans (A_eq m c 1))⟩) (run_main m ρ)

end Cert.KernelIdeal.Hand

end
-- ==== Proof.KI.Pieces.lean ====
/-
  What each case of the body leaves, named: the scratch after the first point is the normalised-query payload of
  the query block, and the output's buffer holds, in its upper half of rows, the first bank tile's class maxima
  against the scratch and, in its lower half, the second tile's.
-/
import proofs.«119591_g73735998537873_cont_9to1_m_286_38_alg».proof.Proof.KI.Frame
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- Row `r` of the upper half of the output's 256-row buffer, and of the lower half. -/
def loRow (r : Fin 128) : Fin 256 := ⟨r.val, by have := r.isLt; omega⟩
def hiRow (r : Fin 128) : Fin 256 := ⟨128 + r.val, by have := r.isLt; omega⟩

/-- The zero offsets, however spelt. -/
theorem hz00 : (![0, 0] : Fin 2 → Nat) = fun _ => 0 := funext fun a => by fin_cases a <;> rfl

/-- A row of the upper half lies outside the lower half's rectangle (rows 128 to 255). -/
theorem lo_not_mem (r : Fin 128) (b : Fin 2048) :
    ix2 (loRow r) b ∉ (Rect.unit (s := S256x2048) ![128, 0] ![128, 2048] inb_S256x2048_S128x2048_128_0).set := fun hm => by
  have h0 := (Rect.mem_set_unit.mp hm (0 : Fin 2)).1
  have h1 : (128 : Nat) ≤ r.val := h0
  have := r.isLt; omega

/-- Index (r, b) of the upper half's rectangle sits at row r of the buffer. -/
theorem lo_emb (r : Fin 128) (b : Fin 2048) :
    ix2 (loRow r) b = (Rect.unit (s := S256x2048) ![0, 0] ![128, 2048] inb_S256x2048_S128x2048_0_0).emb (ix2 r b) :=
  funext fun a => Fin.ext (by
    match a with
    | ⟨0, _⟩ => show r.val = 0 + 1 * r.val; omega
    | ⟨1, _⟩ => show b.val = 0 + 1 * b.val; omega)

/-- Index (r, b) of the lower half's rectangle sits at row 128 + r of the buffer. -/
theorem hi_emb (r : Fin 128) (b : Fin 2048) :
    ix2 (hiRow r) b = (Rect.unit (s := S256x2048) ![128, 0] ![128, 2048] inb_S256x2048_S128x2048_128_0).emb (ix2 r b) :=
  funext fun a => Fin.ext (by
    match a with
    | ⟨0, _⟩ => show 128 + r.val = 128 + 1 * r.val; omega
    | ⟨1, _⟩ => show b.val = 0 + 1 * b.val; omega)

/-- After the first point the scratch holds the normalised queries: the one store's payload. -/
theorem soutA_eq (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) :
    soutA c i arg1 harg1 arg2 harg2 arg3 harg3 arg4 harg4 arg5 harg5 hc x0 xa xb = k0_pay1 x0 := by
  unfold soutA
  rw [View.read_writes_junk_eq_canon]
  unfold kernelRunA
  dsimp only
  sl_unfold_words
  rw [View.canon_unit_zero hz00]
  simp only [View.readAt_eq_ld, harg1.read_unread, View.ld_unit_zero (S := S2048x512) hz00]

/-- The first point's output, upper half: the first tile scored against the queries just normalised. -/
theorem outA_lo (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) (r : Fin 128) (b : Fin 2048) :
    outA c i arg1 harg1 arg2 harg2 arg3 harg3 arg4 harg4 arg5 harg5 hc x0 xa xb (ix2 (loRow r) b) = k0_pay2 (k0_pay1 x0) xa (ix2 r b) := by
  unfold outA
  rw [View.read_writes_junk_eq_canon]
  unfold kernelRunA
  dsimp only
  sl_unfold_words
  refine (View.canon_cons_of_not_mem _ _ ?_).trans ?_
  · exact lo_not_mem r b
  rw [lo_emb r b, View.canon_cons_emb]
  simp only [View.readAt_eq_ld, harg1.read_unread, harg2.read_unread, View.ld_unit_zero (S := S2048x512) hz00,
    View.readCov_unit_zero (S := S2048x512) _ hz00]

/-- The first point's output, lower half: the second tile. -/
theorem outA_hi (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : cond0 i)
    (x0 xa xb : Vec F S2048x512 .f32) (r : Fin 128) (b : Fin 2048) :
    outA c i arg1 harg1 arg2 harg2 arg3 harg3 arg4 harg4 arg5 harg5 hc x0 xa xb (ix2 (hiRow r) b) = k0_pay3 (k0_pay1 x0) xb (ix2 r b) := by
  unfold outA
  rw [View.read_writes_junk_eq_canon]
  unfold kernelRunA
  dsimp only
  sl_unfold_words
  rw [hi_emb r b, View.canon_cons_emb]
  simp only [View.readAt_eq_ld, harg1.read_unread, harg3.read_unread, View.ld_unit_zero (S := S2048x512) hz00,
    View.readCov_unit_zero (S := S2048x512) _ hz00]

/-- A later point's output, upper half: the first tile scored against what the scratch holds. -/
theorem outB_lo (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 xa xb : Vec F S2048x512 .f32) (xs : Vec F S2048x512 .bf16) (r : Fin 128) (b : Fin 2048) :
    outB c i arg1 harg1 arg2 harg2 arg3 harg3 arg4 harg4 arg5 harg5 hc x0 xa xb xs (ix2 (loRow r) b) = k0_pay2 xs xa (ix2 r b) := by
  unfold outB
  rw [View.read_writes_junk_eq_canon]
  unfold kernelRunB
  dsimp only
  sl_unfold_words
  refine (View.canon_cons_of_not_mem _ _ ?_).trans ?_
  · exact lo_not_mem r b
  rw [lo_emb r b, View.canon_cons_emb]
  simp only [View.readAt_eq_ld, harg5.read_unread, harg2.read_unread, View.ld_unit_zero (S := S2048x512) hz00]

/-- A later point's output, lower half: the second tile. -/
theorem outB_hi (c : Dev nD) (i : grid0.Coords) (arg1 : Memref sig .tc .vmem S2048x512 .f32) (harg1 : arg1.IsWhole) (arg2 : Memref sig .tc .vmem S2048x512 .f32) (harg2 : arg2.IsWhole) (arg3 : Memref sig .tc .vmem S2048x512 .f32) (harg3 : arg3.IsWhole) (arg4 : Memref sig .tc .vmem S256x2048 .f32) (harg4 : arg4.IsWhole) (arg5 : Memref sig .tc .vmem S2048x512 .bf16) (harg5 : arg5.IsWhole) (hc : ¬cond0 i)
    (x0 xa xb : Vec F S2048x512 .f32) (xs : Vec F S2048x512 .bf16) (r : Fin 128) (b : Fin 2048) :
    outB c i arg1 harg1 arg2 harg2 arg3 harg3 arg4 harg4 arg5 harg5 hc x0 xa xb xs (ix2 (hiRow r) b) = k0_pay3 xs xb (ix2 r b) := by
  unfold outB
  rw [View.read_writes_junk_eq_canon]
  unfold kernelRunB
  dsimp only
  sl_unfold_words
  rw [hi_emb r b, View.canon_cons_emb]
  simp only [View.readAt_eq_ld, harg5.read_unread, harg3.read_unread, View.ld_unit_zero (S := S2048x512) hz00]

end Cert.KernelIdeal.Hand

end
-- ==== Proof.Spec.lean ====
/-
  The result both programs compute, as one function of the two argument arrays at the ideal instance.

  For a query array `d` (2048 rows of 512) and a proxy bank `w` (16384 rows of 512, sixteen consecutive rows
  per class), entry (c, b) of the result is the largest, over the sixteen proxies p of class c, of the inner
  product of bank row 16c + p with query b scaled to unit length: query b times the reciprocal of its
  Euclidean norm, the norm floored at the constant ε. On the extended reals the floored norm is at least
  ε > 0 whatever the query holds, so the product with its reciprocal is the quotient by it.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The queries' shape, the proxy bank's and the result's. -/
abbrev SQ : Shape := ⟨2, ![2048, 512]⟩
abbrev SB : Shape := ⟨2, ![16384, 512]⟩
abbrev SY : Shape := ⟨2, ![1024, 2048]⟩

/-- The floor of the norm: the float the programs write for 1e-12. -/
def eps : EReal := Ideal.ofBits .f32 0x2B8CBCCC#32

/-- The sum of the squares of query `b`. -/
def sumSq (d : SQ.Idx → EReal) (b : Fin 2048) : EReal := ∑ k : Fin 512, d (ix2 b k) * d (ix2 b k)

/-- Query `b`'s Euclidean norm, floored at ε. -/
def flooredNorm (d : SQ.Idx → EReal) (b : Fin 2048) : EReal := max (Ideal.sqrt (sumSq d b)) eps

/-- Query `b` scaled to unit length, at coordinate `k`: the entry times the reciprocal of the floored norm. -/
def unitQuery (d : SQ.Idx → EReal) (b : Fin 2048) (k : Fin 512) : EReal :=
  d (ix2 b k) * Ideal.div (Ideal.ofBits .f32 0x3F800000#32) (flooredNorm d b)

/-- The score of bank row `r` against query `b`: their inner product, the query scaled to unit length. -/
def score (d : SQ.Idx → EReal) (w : SB.Idx → EReal) (r : Fin 16384) (b : Fin 2048) : EReal :=
  ∑ k : Fin 512, w (ix2 r k) * unitQuery d b k

/-- Proxy `p` of class `c` is bank row 16c + p. -/
def proxyRow (c : Fin 1024) (p : Fin 16) : Fin 16384 := ⟨16 * c.val + p.val, by have := c.isLt; have := p.isLt; omega⟩

/-- The result: at (c, b) the largest score of class `c`'s sixteen proxies against query `b`, the maximum taken from −∞. -/
def G (d : SQ.Idx → EReal) (w : SB.Idx → EReal) : SY.Idx → EReal := fun i =>
  (Finset.univ : Finset (Fin 16)).fold max (Ideal.ofBits .f32 0xFF800000#32) (fun p => score d w (proxyRow (i 0) p) (i 1))

/-- ε is a positive real. -/
theorem eps_pos : 0 < eps := by
  unfold eps
  simp [Ideal.ofBits, Ideal.ieee]
  rw [← EReal.coe_mul, ← EReal.coe_zero, EReal.coe_lt_coe_iff]
  positivity

/-- The floored norm is positive, whatever the query holds. -/
theorem flooredNorm_pos (d : SQ.Idx → EReal) (b : Fin 2048) : 0 < flooredNorm d b :=
  lt_of_lt_of_le eps_pos (le_max_right _ _)

/-- The pattern of 1.0 denotes one. -/
theorem one_eq : Ideal.ofBits .f32 0x3F800000#32 = 1 := by
  simp [Ideal.ofBits, Ideal.ieee]
  rw [← EReal.coe_mul, ← EReal.coe_one, EReal.coe_eq_coe_iff]
  norm_num

/-- Scaling by the reciprocal of the floored norm is dividing by it: the norm is not zero. -/
theorem unitQuery_eq_div (d : SQ.Idx → EReal) (b : Fin 2048) (k : Fin 512) :
    unitQuery d b k = Ideal.div (d (ix2 b k)) (flooredNorm d b) := by
  unfold unitQuery
  have hne : flooredNorm d b ≠ 0 := (flooredNorm_pos d b).ne'
  rw [one_eq, Ideal.div, Ideal.div, if_neg hne, if_neg hne, one_mul]

end Cert.Spec

end
-- ==== Proof.PayloadIdx.lean ====
/-
  The kernel's three pure payloads read at an index, at the ideal instance.

  The first payload is the query block the kernel keeps: entry (b, k) is the query's entry times the reciprocal of the
  query's Euclidean norm, the norm floored at ε — the unit query of the specification. The second and third are one
  term over two bank tiles: entry (c, b) is the largest, over the sixteen rows 16c + p of the tile, of the inner
  product over k of the tile's row with the kept query b, the maximum taken from the value of the pattern 0xFF800000.
-/
import proofs.«119591_g73735998537873_cont_9to1_m_286_38_alg».proof.Proof.Gen.KernelIdeal.Skeleton
import proofs.«119591_g73735998537873_cont_9to1_m_286_38_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Cert.KernelIdeal Cert.KernelIdeal.Gen Idealize.ShloMosaic Idealize.ShloMosaic.ValueIdx Idealize.SL.Sem

/-- An `[a]` array cast to the column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The normalised query block read at `(b, k)`: the query's entry times the reciprocal of its floored norm. -/
theorem pay1_apply (v16 : Vec Ideal S2048x512 .f32) (b : Fin 2048) (k : Fin 512) :
    k0_pay1 (F := Ideal) v16 (ix2 b k) = Cert.Spec.unitQuery v16 b k := by
  unfold k0_pay1
  rw [shapeCast_self]
  unfold Cert.Spec.unitQuery Cert.Spec.flooredNorm Cert.Spec.sumSq Cert.Spec.eps
  show v16 (ix2 b k) * broadcastTo S2048x512 _ broadcasts_S2048x1_S2048x512 (ix2 b k) = _
  refine congrArg (v16 (ix2 b k) * ·) ?_
  refine (broadcastTo_a1_ab_apply _ _ b k).trans ?_
  refine (divf_apply _ _ _).trans ?_
  refine congrArg (Ideal.div (Ideal.ofBits .f32 0x3F800000#32)) ?_
  refine (maximumf_apply _ _ _).trans ?_
  refine congrArg (max · (Ideal.ofBits .f32 0x2B8CBCCC#32)) ?_
  refine congrArg Ideal.sqrt ?_
  refine (shapeCast_a_a1_apply _ _ b 0).trans ?_
  refine (Ideal.multiReduction_add_single _ _ _ _ _ _).trans ?_
  refine Finset.sum_congr rfl fun k' _ => ?_
  have e : reduces_S2048x512_S2048.lift (ix1 b) k' = ix2 b k' :=
    funext fun a => Fin.ext (by match a with | ⟨0, _⟩ => rfl | ⟨1, _⟩ => rfl)
  rw [e]
  rfl

/-- row 16c + p of a 2048-row tile -/
def tileRow (c : Fin 128) (p : Fin 16) : Fin 2048 := ⟨16 * c.val + p.val, by have := c.isLt; have := p.isLt; omega⟩

/-- The product's left operand index: its row is the output's row, -/
theorem lhs_pay_0 (i : S2048x2048.Idx) (q : dot_S2048x512_S2048x512_S2048x2048_1_1_0_0_n_n.contr.Idx) :
    (dot_S2048x512_S2048x512_S2048x2048_1_1_0_0_n_n.lhsIdx i q 0).val = (i 0).val := by
  unfold DotDims.lhsIdx
  rw [dif_neg (show ¬(0 : Fin S2048x512.rank) ∈ dot_S2048x512_S2048x512_S2048x2048_1_1_0_0_n_n.lhsBatch by decide), dif_pos (show (0 : Fin S2048x512.rank) ∈ dot_S2048x512_S2048x512_S2048x2048_1_1_0_0_n_n.lhsNonContracting by decide)]
  rfl
/-- its column the contraction coordinate. -/
theorem lhs_pay_1 (i : S2048x2048.Idx) (q : dot_S2048x512_S2048x512_S2048x2048_1_1_0_0_n_n.contr.Idx) :
    (dot_S2048x512_S2048x512_S2048x2048_1_1_0_0_n_n.lhsIdx i q 1).val = (q ⟨0, by decide⟩).val :=
  dot_S2048x512_S2048x512_S2048x2048_1_1_0_0_n_n.lhsIdx_val_of_single rfl i q
/-- The right operand index: its row is the output's column, -/
theorem rhs_pay_0 (i : S2048x2048.Idx) (q : dot_S2048x512_S2048x512_S2048x2048_1_1_0_0_n_n.contr.Idx) :
    (dot_S2048x512_S2048x512_S2048x2048_1_1_0_0_n_n.rhsIdx i q 0).val = (i 1).val := by
  unfold DotDims.rhsIdx
  rw [dif_neg (show ¬(0 : Fin S2048x512.rank) ∈ dot_S2048x512_S2048x512_S2048x2048_1_1_0_0_n_n.rhsBatch by decide), dif_pos (show (0 : Fin S2048x512.rank) ∈ dot_S2048x512_S2048x512_S2048x2048_1_1_0_0_n_n.rhsNonContracting by decide)]
  rfl
/-- its column the contraction coordinate. -/
theorem rhs_pay_1 (i : S2048x2048.Idx) (q : dot_S2048x512_S2048x512_S2048x2048_1_1_0_0_n_n.contr.Idx) :
    (dot_S2048x512_S2048x512_S2048x2048_1_1_0_0_n_n.rhsIdx i q 1).val = (q ⟨0, by decide⟩).val :=
  dot_S2048x512_S2048x512_S2048x2048_1_1_0_0_n_n.rhsIdx_val_of_single rfl i q

/-- The first bank tile's scores read at `(c, b)`: the largest, over the sixteen rows `16c + p` of the tile, of the
    row's inner product with the kept query `b`, the maximum taken from the accumulator's value. -/
theorem pay2_apply (v3 : Vec Ideal S2048x512 .bf16) (v4 : Vec Ideal S2048x512 .f32) (c : Fin 128) (b : Fin 2048) :
    k0_pay2 (F := Ideal) v3 v4 (ix2 c b)
      = (Finset.univ : Finset (Fin 16)).fold max (Ideal.ofBits .f32 0xFF800000#32) (fun p => ∑ k : Fin 512, v4 (ix2 (tileRow c p) k) * v3 (ix2 b k)) := by
  unfold k0_pay2
  refine (Ideal.multiReduction_maximumf_single _ _ _ _ _ _).trans ?_
  refine congrArg (fun f => (Finset.univ : Finset (Fin 16)).fold max (Ideal.ofBits .f32 0xFF800000#32) f) (funext fun p => ?_)
  show shapeCast S128x16x2048 _ shapeCasts_S2048x2048_S128x16x2048 (reduces_S128x16x2048_S128x2048.lift (ix2 c b) p) = _
  refine (shapeCast_apply _ _ _ (ix2 (tileRow c p) b) ?_).trans ?_
  · rw [Shape.rowMajor_val_two, Shape.rowMajor_val_three]
    show (16 * c.val + p.val) * 2048 + b.val = (c.val * 16 + p.val) * 2048 + b.val
    omega
  · simp only [matmul]
    rw [Ideal.matmul_constant_zero_apply, ← Equiv.sum_comp (ValueIdx.contrEquiv1 dot_S2048x512_S2048x512_S2048x2048_1_1_0_0_n_n 512 rfl rfl).symm]
    refine Finset.sum_congr rfl fun k _ => ?_
    have hk := ValueIdx.contrEquiv1_symm_val dot_S2048x512_S2048x512_S2048x2048_1_1_0_0_n_n 512 rfl rfl k
    have el : dot_S2048x512_S2048x512_S2048x2048_1_1_0_0_n_n.lhsIdx (ix2 (tileRow c p) b) ((ValueIdx.contrEquiv1 dot_S2048x512_S2048x512_S2048x2048_1_1_0_0_n_n 512 rfl rfl).symm k) = ix2 (tileRow c p) k := funext fun a => Fin.ext (by
      match a with
      | ⟨0, _⟩ => exact lhs_pay_0 _ _
      | ⟨1, _⟩ => exact (lhs_pay_1 _ _).trans hk)
    have er : dot_S2048x512_S2048x512_S2048x2048_1_1_0_0_n_n.rhsIdx (ix2 (tileRow c p) b) ((ValueIdx.contrEquiv1 dot_S2048x512_S2048x512_S2048x2048_1_1_0_0_n_n 512 rfl rfl).symm k) = ix2 b k := funext fun a => Fin.ext (by
      match a with
      | ⟨0, _⟩ => exact rhs_pay_0 _ _
      | ⟨1, _⟩ => exact (rhs_pay_1 _ _).trans hk)
    rw [el, er]
    rfl

/-- The second bank tile's scores read at `(c, b)`: the same term over the second tile. -/
theorem pay3_apply (v3 : Vec Ideal S2048x512 .bf16) (v10 : Vec Ideal S2048x512 .f32) (c : Fin 128) (b : Fin 2048) :
    k0_pay3 (F := Ideal) v3 v10 (ix2 c b)
      = (Finset.univ : Finset (Fin 16)).fold max (Ideal.ofBits .f32 0xFF800000#32) (fun p => ∑ k : Fin 512, v10 (ix2 (tileRow c p) k) * v3 (ix2 b k)) :=
  pay2_apply v3 v10 c b

end Cert.KernelIdeal.PayValue

end
-- ==== Proof.KValue.lean ====
/-
  The kernel's result array is the specification.

  The grid has four points. The query window's block is the whole query array at every point; the two windows on the
  proxy bank hold, at point t, bank rows 2048·(2t) … and 2048·(2t + 1) …; the result window's block at point t is result
  rows 256t … 256t + 255, written back after every point. The scratch holds the unit queries from the first point on, so
  at point t the upper half of the output's buffer holds, at row r, the largest of the sixteen inner products of bank
  rows 2048·(2t) + 16r + p with the unit queries, and the lower half the same over rows 2048·(2t + 1) + 16r + p. Class
  256t + r has proxies 16(256t + r) + p = 2048·(2t) + 16r + p, and class 256t + 128 + r has proxies
  2048·(2t + 1) + 16r + p: these are rows 256t + r and 256t + 128 + r of the specification. The four blocks tile the
  result array.
-/
import proofs.«119591_g73735998537873_cont_9to1_m_286_38_alg».proof.Proof.KI.Launch
import proofs.«119591_g73735998537873_cont_9to1_m_286_38_alg».proof.Proof.KI.Pieces
import proofs.«119591_g73735998537873_cont_9to1_m_286_38_alg».proof.Proof.PayloadIdx
import proofs.«119591_g73735998537873_cont_9to1_m_286_38_alg».proof.Proof.Spec
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The query array and the proxy bank as the region finds them on core `c`. -/
abbrev Qs (c : Dev nD) : Cert.Spec.SQ.Idx → EReal := m ((c.tc : Thread nD τ).loc main_arg0)
abbrev Ws (c : Dev nD) : Cert.Spec.SB.Idx → EReal := m ((c.tc : Thread nD τ).loc main_arg1)

/-! ## One tile's scores are the specification's rows -/

/-- A tile whose row `16r + p` is the bank's row of proxy `p` of class `cls`, scored against the unit queries: entry
    `(r, b)` is the specification's entry `(cls, b)`. -/
theorem scores_first (Q : Vec Ideal S2048x512 .f32) (W : Cert.Spec.SB.Idx → EReal) (x : Vec Ideal S2048x512 .f32)
    (cls : Fin 1024) (r : Fin 128) (b : Fin 2048)
    (hx : ∀ (p : Fin 16) (k : Fin 512), x (ix2 (PayValue.tileRow r p) k) = W (ix2 (Cert.Spec.proxyRow cls p) k)) :
    k0_pay2 (F := Ideal) (k0_pay1 (F := Ideal) Q) x (ix2 r b) = Cert.Spec.G Q W (ix2 cls b) := by
  rw [PayValue.pay2_apply]
  unfold Cert.Spec.G Cert.Spec.score
  refine congrArg (fun f => (Finset.univ : Finset (Fin 16)).fold max (Ideal.ofBits .f32 0xFF800000#32) f) (funext fun p => ?_)
  refine Finset.sum_congr rfl fun k _ => ?_
  rw [hx p k, PayValue.pay1_apply]

/-- The same for the second tile's term. -/
theorem scores_second (Q : Vec Ideal S2048x512 .f32) (W : Cert.Spec.SB.Idx → EReal) (x : Vec Ideal S2048x512 .f32)
    (cls : Fin 1024) (r : Fin 128) (b : Fin 2048)
    (hx : ∀ (p : Fin 16) (k : Fin 512), x (ix2 (PayValue.tileRow r p) k) = W (ix2 (Cert.Spec.proxyRow cls p) k)) :
    k0_pay3 (F := Ideal) (k0_pay1 (F := Ideal) Q) x (ix2 r b) = Cert.Spec.G Q W (ix2 cls b) := by
  rw [PayValue.pay3_apply]
  unfold Cert.Spec.G Cert.Spec.score
  refine congrArg (fun f => (Finset.univ : Finset (Fin 16)).fold max (Ideal.ofBits .f32 0xFF800000#32) f) (funext fun p => ?_)
  refine Finset.sum_congr rfl fun k _ => ?_
  rw [hx p k, PayValue.pay1_apply]

/-! ## The blocks as rows of the arrays -/

/-- The printed index maps, decided over the four points: the query window stays on block (0, 0); the two bank
    windows are on row blocks `2t` and `2t + 1`; the result window on row block `t`. -/
theorem idx_facts : ∀ t : Fin cfg0.N,
    win0_0.index t (0 : Fin 2) = 0 ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = t.val ∧ win0_3.index t (1 : Fin 2) = 0 :=
  (by decide +kernel : ∀ t : Fin grid0.N, _)

/-- The query window's block at any point is the query array. -/
theorem iblk0_apply (c : Dev nD) (t : Fin cfg0.N) (j : S2048x512.Idx) :
    (iblk m c 0 t : Vec Ideal S2048x512 .f32) j = Qs m c j := by
  obtain ⟨e00, e01, -⟩ := idx_facts t
  unfold iblk
  rw [View.read_apply]
  show V m c main_arg0 _ = m (c.tc.loc main_arg0) _
  unfold V
  congr 1
  funext a
  apply Fin.ext
  match a with
  | ⟨0, _⟩ => show win0_0.index t 0 * 2048 + 1 * (j 0).val = (j 0).val; rw [e00]; omega
  | ⟨1, _⟩ => show win0_0.index t 1 * 512 + 1 * (j 1).val = (j 1).val; rw [e01]; omega

/-- The first bank window's block at point `t` is bank rows `2048·(2t) …`. -/
theorem iblk1_apply (c : Dev nD) (t : Fin cfg0.N) (r : Fin 2048) (k : Fin 512) (R : Fin 16384)
    (hR : R.val = 2048 * (2 * t.val) + r.val) :
    (iblk m c 1 t : Vec Ideal S2048x512 .f32) (ix2 r k) = Ws m c (ix2 R k) := by
  obtain ⟨-, -, e10, e11, -⟩ := idx_facts t
  unfold iblk
  rw [View.read_apply]
  show V m c main_arg1 _ = m (c.tc.loc main_arg1) _
  unfold V
  congr 1
  funext a
  apply Fin.ext
  match a with
  | ⟨0, _⟩ => show win0_1.index t 0 * 2048 + 1 * r.val = R.val; rw [e10, hR]; omega
  | ⟨1, _⟩ => show win0_1.index t 1 * 512 + 1 * k.val = k.val; rw [e11]; omega

/-- The second bank window's block at point `t` is bank rows `2048·(2t + 1) …`. -/
theorem iblk2_apply (c : Dev nD) (t : Fin cfg0.N) (r : Fin 2048) (k : Fin 512) (R : Fin 16384)
    (hR : R.val = 2048 * (2 * t.val + 1) + r.val) :
    (iblk m c 2 t : Vec Ideal S2048x512 .f32) (ix2 r k) = Ws m c (ix2 R k) := by
  obtain ⟨-, -, -, -, e20, e21, -⟩ := idx_facts t
  unfold iblk
  rw [View.read_apply]
  show V m c main_arg1 _ = m (c.tc.loc main_arg1) _
  unfold V
  congr 1
  funext a
  apply Fin.ext
  match a with
  | ⟨0, _⟩ => show win0_2.index t 0 * 2048 + 1 * r.val = R.val; rw [e20, hR]; omega
  | ⟨1, _⟩ => show win0_2.index t 1 * 512 + 1 * k.val = k.val; rw [e21]; omega

/-! ## Point by point -/

/-- The scratch holds the unit queries after every point: the first point stores them, a later point leaves them. -/
theorem scratch_eq (c : Dev nD) (n : ℕ) (hn : n < cfg0.N) : (outsAt m c n hn).2 = k0_pay1 (F := Ideal) (Qs m c) := by
  induction n with
  | zero =>
    have e0 : (iblk m c 0 ⟨0, hn⟩ : Vec Ideal S2048x512 .f32) = Qs m c := funext fun j => iblk0_apply m c ⟨0, hn⟩ j
    have h := congrArg Prod.snd (outsAt_A m c ⟨0, hn⟩ rfl)
    dsimp only at h
    rw [h, soutA_eq, e0]
  | succ n ih =>
    have h := congrArg Prod.snd (outsAt_B m c ⟨n + 1, hn⟩ (Nat.succ_ne_zero n))
    dsimp only at h
    rw [h]
    exact ih _

/-- Row `r` of the upper half of what point `t` leaves in the output's buffer is row `256t + r` of the specification, -/
theorem out_lo (c : Dev nD) (t : Fin cfg0.N) (r : Fin 128) (b : Fin 2048) (cls : Fin 1024) (hcls : cls.val = 256 * t.val + r.val) :
    (outsAt m c t.val t.isLt).1 (ix2 (loRow r) b) = Cert.Spec.G (Qs m c) (Ws m c) (ix2 cls b) := by
  have hx : ∀ (p : Fin 16) (k : Fin 512), (iblk m c 1 t : Vec Ideal S2048x512 .f32) (ix2 (PayValue.tileRow r p) k) = Ws m c (ix2 (Cert.Spec.proxyRow cls p) k) :=
    fun p k => iblk1_apply m c t _ k _ (by
      show 16 * cls.val + p.val = 2048 * (2 * t.val) + (16 * r.val + p.val)
      omega)
  by_cases h0 : t.val = 0
  · have e0 : (iblk m c 0 t : Vec Ideal S2048x512 .f32) = Qs m c := funext fun j => iblk0_apply m c t j
    have h := congrArg Prod.fst (outsAt_A m c t h0)
    dsimp only at h
    rw [h, outA_lo, e0]
    exact scores_first (Qs m c) (Ws m c) _ cls r b hx
  · have h := congrArg Prod.fst (outsAt_B m c t h0)
    dsimp only at h
    rw [h, outB_lo, scratch_eq m c]
    exact scores_first (Qs m c) (Ws m c) _ cls r b hx

/-- and row `r` of the lower half is row `256t + 128 + r`. -/
theorem out_hi (c : Dev nD) (t : Fin cfg0.N) (r : Fin 128) (b : Fin 2048) (cls : Fin 1024) (hcls : cls.val = 256 * t.val + 128 + r.val) :
    (outsAt m c t.val t.isLt).1 (ix2 (hiRow r) b) = Cert.Spec.G (Qs m c) (Ws m c) (ix2 cls b) := by
  have hx : ∀ (p : Fin 16) (k : Fin 512), (iblk m c 2 t : Vec Ideal S2048x512 .f32) (ix2 (PayValue.tileRow r p) k) = Ws m c (ix2 (Cert.Spec.proxyRow cls p) k) :=
    fun p k => iblk2_apply m c t _ k _ (by
      show 16 * cls.val + p.val = 2048 * (2 * t.val + 1) + (16 * r.val + p.val)
      omega)
  by_cases h0 : t.val = 0
  · have e0 : (iblk m c 0 t : Vec Ideal S2048x512 .f32) = Qs m c := funext fun j => iblk0_apply m c t j
    have h := congrArg Prod.fst (outsAt_A m c t h0)
    dsimp only at h
    rw [h, outA_hi, e0]
    exact scores_second (Qs m c) (Ws m c) _ cls r b hx
  · have h := congrArg Prod.fst (outsAt_B m c t h0)
    dsimp only at h
    rw [h, outB_hi, scratch_eq m c]
    exact scores_second (Qs m c) (Ws m c) _ cls r b hx

/-- So what point `t` leaves in the output's buffer is rows `256t …` of the specification. -/
theorem out_at (c : Dev nD) (t : Fin cfg0.N) (j : S256x2048.Idx) (i : Cert.Spec.SY.Idx)
    (hi0 : (i 0).val = 256 * t.val + (j 0).val) (hi1 : (i 1).val = (j 1).val) :
    (outsAt m c t.val t.isLt).1 j = Cert.Spec.G (Qs m c) (Ws m c) i := by
  have hj0 : (j 0).val < 256 := (j 0).isLt
  have ei : i = ix2 (i 0) (i 1) := eq_ix2 i
  have e1 : (i 1 : Fin 2048) = j 1 := Fin.ext hi1
  by_cases hlo : (j 0).val < 128
  · have ej : j = ix2 (loRow ⟨(j 0).val, hlo⟩) (j 1) :=
      funext fun a => Fin.ext (by match a with | ⟨0, _⟩ => rfl | ⟨1, _⟩ => rfl)
    rw [ej, ei, e1]
    exact out_lo m c t ⟨(j 0).val, hlo⟩ (j 1) (i 0) hi0
  · have ej : j = ix2 (hiRow ⟨(j 0).val - 128, by omega⟩) (j 1) :=
      funext fun a => Fin.ext (by
        match a with
        | ⟨0, _⟩ => show (j 0).val = 128 + ((j 0).val - 128); omega
        | ⟨1, _⟩ => rfl)
    rw [ej, ei, e1]
    exact out_hi m c t ⟨(j 0).val - 128, by omega⟩ (j 1) (i 0) (by show (i 0).val = 256 * t.val + 128 + ((j 0).val - 128); omega)

/-! ## From the blocks to the array -/

/-- What point `t` writes back is block `t` of the specification of the two argument arrays. -/
theorem flushed_eq (c : Dev nD) (t : Fin cfg0.N) :
    (dats m 0 c).flushed 3 t = ((cfg0.win 3).blk t).view.read (Elt Ideal) (Cert.Spec.G (Qs m c) (Ws m c)) := by
  show (cfg0.win 3).cut (grid0.coords t) ((dats m 0 c).after 3 t) = _
  rw [after_3]
  obtain ⟨-, -, -, -, -, -, e30, e31⟩ := idx_facts t
  funext j
  rw [View.read_apply]
  show (outsAt m c t.val t.isLt).1 ((cfg0.win 3).xinj (grid0.coords t) j) = Cert.Spec.G (Qs m c) (Ws m c) (((cfg0.win 3).blk t).view.emb j)
  refine out_at m c t _ _ ?_ ?_
  · show win0_3.index t 0 * 256 + 1 * (j 0).val = 256 * t.val + (j 0).val
    rw [e30]; omega
  · show win0_3.index t 1 * 2048 + 1 * (j 1).val = (j 1).val
    rw [e31]; omega

/-- An index of the result array is in point `t`'s block iff each coordinate is in the block's range on its axis. -/
theorem mem_blk (t : Fin cfg0.N) (i : S1024x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_v0).slice (win0_3.rect t)).set ↔ _
  rw [View.set_slice_whole, Rect.mem_set_unit]
  exact Iff.rfl

/-- The result's blocks tile its array: row `i` lies in the block of point `i / 256`. -/
theorem cover (i : S1024x2048.Idx) :
    ∃ t : Fin cfg0.N, (cfg0.win 3).flush t = true ∧ i ∈ ((cfg0.win 3).blk t).view.set := by
  have h0 : (i 0).val < 1024 := (i 0).isLt
  have h1 : (i 1).val < 2048 := (i 1).isLt
  have hN : cfg0.N = 4 := N_0
  have ht : (i 0).val / 256 < cfg0.N := by omega
  obtain ⟨-, -, -, -, -, -, e30, e31⟩ := idx_facts ⟨(i 0).val / 256, ht⟩
  refine ⟨⟨(i 0).val / 256, ht⟩, flush0_3 _, ?_⟩
  rw [mem_blk]
  intro a
  match a with
  | ⟨0, _⟩ =>
    show win0_3.index ⟨(i 0).val / 256, ht⟩ (0 : Fin 2) * 256 ≤ (i 0).val ∧ (i 0).val < win0_3.index ⟨(i 0).val / 256, ht⟩ (0 : Fin 2) * 256 + 256
    rw [e30]; dsimp only; omega
  | ⟨1, _⟩ =>
    show win0_3.index ⟨(i 0).val / 256, ht⟩ (1 : Fin 2) * 2048 ≤ (i 1).val ∧ (i 1).val < win0_3.index ⟨(i 0).val / 256, ht⟩ (1 : Fin 2) * 2048 + 2048
    rw [e31]; omega

/-- The kernel's result array is the specification of its two argument arrays. -/
theorem final (m : (ℓ : Loc nD τ sig) → Buf (Elt Ideal) ℓ) (c : Dev nD) :
    (dats m 0 c).arrAt 3 cfg0.N = Cert.Spec.G (m ((c.tc : Thread nD τ).loc main_arg0)) (m ((c.tc : Thread nD τ).loc main_arg1)) :=
  (dats m 0 c).arrAt_eq_of_cover 3 (Cert.Spec.G (Qs m c) (Ws m c)) (fun t _ => flushed_eq m c t) cover

end Cert.KernelIdeal.KValue

end
-- ==== Proof.RefIsSpec.lean ====
/-
  The reference computes the specification.

  The reference divides each query entry by max(ε, sqrt(0 + Σ_k d(b,k)²)); the specification multiplies it by the
  reciprocal of max(sqrt(Σ_k d(b,k)²), ε). The two floored norms are the same number (0 + s = s, max is commutative),
  it is positive, so the product with its reciprocal is the quotient. The reference's contraction of bank row r with the
  transposed quotient is Σ_k w(r,k)·q(b,k), the score of row r against query b. Its reshape sends (c, p, b) to row
  c·16 + p = 16c + p, column b, and its last stage takes, from −∞, the maximum over p: the specification's entry (c, b).
-/
import proofs.«119591_g73735998537873_cont_9to1_m_286_38_alg».proof.Proof.Gen.ReferenceIdeal.Read
import proofs.«119591_g73735998537873_cont_9to1_m_286_38_alg».proof.Proof.Spec
import Idealize.ShloMosaic.PureOps.Reduce
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- The clipped norm of query `b`, max(ε, sqrt(0 + Σ_k d(b,k)·d(b,k))), is the specification's floored norm
    max(sqrt(Σ_k d(b,k)·d(b,k)), ε). -/
theorem v1_eq (x0 : (⟨Cert.ReferenceIdeal.S2048x512, .f32⟩ : BufTy).Contents (Elt Ideal)) (b : Fin 2048) (z : Fin 1) :
    val_main_v1 (F := Ideal) x0 (ix2 b z) = Cert.Spec.flooredNorm x0 b := by
  rw [val_main_v1_apply, val_main_call1_v1_apply, val_main_call1_v0_apply, val_main_cst_apply, val_main_v0_apply,
    val_main_call0_v2_apply, val_main_call0_v1_apply, val_main_call0_cst_apply]
  rw [Ideal.maximumf_def, Ideal.hostUnary_sqrt_def, Ideal.ofBits_def, Ideal.ofBits_def, Ideal.ofBits_zero_f32, zero_add, max_comm]
  unfold Cert.Spec.flooredNorm Cert.Spec.sumSq Cert.Spec.eps
  refine congrArg (fun s => max (Ideal.sqrt s) _) (Finset.sum_congr rfl fun k _ => ?_)
  rw [val_main_call0_v0_apply, Ideal.mulf_def]
  have e : idx_main_call0_v1 (idx_main_call0_v2 (ix2 b z)) k = ix2 b k :=
    funext fun a => Fin.ext (by match a with | ⟨0, _⟩ => rfl | ⟨1, _⟩ => rfl)
  rw [e]

/-- The quotient of entry (b, k) by the clipped norm of query `b` is the unit query's coordinate `k`: the norm is
    positive, so dividing by it is multiplying by its reciprocal. -/
theorem v3_eq (x0 : (⟨Cert.ReferenceIdeal.S2048x512, .f32⟩ : BufTy).Contents (Elt Ideal)) (b : Fin 2048) (k : Fin 512) :
    val_main_v3 (F := Ideal) x0 (ix2 b k) = Cert.Spec.unitQuery x0 b k := by
  rw [Cert.Spec.unitQuery_eq_div, val_main_v3_apply, val_main_v2_apply, Ideal.hostDivf_def]
  have e : idx_main_v2 (ix2 b k) = ix2 b (0 : Fin 1) :=
    funext fun a => Fin.ext (by match a with | ⟨0, _⟩ => rfl | ⟨1, _⟩ => rfl)
  rw [e, v1_eq]

/-- The contraction at (r, b), Σ_k w(r,k)·qᵀ(k,b), is the score of bank row `r` against query `b`. -/
theorem v5_eq (x0 : (⟨Cert.ReferenceIdeal.S2048x512, .f32⟩ : BufTy).Contents (Elt Ideal)) (x1 : (⟨Cert.ReferenceIdeal.S16384x512, .f32⟩ : BufTy).Contents (Elt Ideal)) (r : Fin 16384) (b : Fin 2048) :
    val_main_v5 (F := Ideal) x0 x1 (ix2 r b) = Cert.Spec.score x0 x1 r b := by
  rw [val_main_v5_apply]
  unfold Cert.Spec.score
  refine Finset.sum_congr rfl fun k _ => ?_
  rw [val_main_v4_apply]
  have el : lidx_main_v5 (ix2 r b) k = ix2 r k :=
    funext fun a => Fin.ext (by match a with | ⟨0, _⟩ => rfl | ⟨1, _⟩ => rfl)
  have er : idx_main_v4 (ridx_main_v5 (ix2 r b) k) = ix2 b k :=
    funext fun a => Fin.ext (by match a with | ⟨0, _⟩ => rfl | ⟨1, _⟩ => rfl)
  rw [el, er, v3_eq]

/-- The reference's result is the specification's: at (c, b) the maximum from −∞, over the sixteen p, of the score of
    row 16c + p against query b. The reshaped index (c, p, b) has flat position (c·16 + p)·2048 + b, whose quotient by
    2048 is c·16 + p = 16c + p and whose remainder is b. -/
theorem ref_eq_G (x0 : (⟨Cert.ReferenceIdeal.S2048x512, .f32⟩ : BufTy).Contents (Elt Ideal)) (x1 : (⟨Cert.ReferenceIdeal.S16384x512, .f32⟩ : BufTy).Contents (Elt Ideal)) :
    Cert.ReferenceIdeal.Read.val_main_v7 (F := Ideal) x0 x1 = Cert.Spec.G x0 x1 := by
  funext i
  have h : S1024x16x2048.Reduces [1] S1024x2048 := by decide
  unfold val_main_v7 Cert.Spec.G
  rw [Host.reduce_eq_fold_single FloatOps.maximumf _ _ reducesTo_S1024x16x2048_S1024x2048_d1 h h_S_ i]
  refine Finset.fold_congr fun p _ => ?_
  rw [Function.comp_apply, val_main_v6_apply]
  have e : idx_main_v6 (h.lift i p) = ix2 (Cert.Spec.proxyRow (i 0) p) (i 1) := by
    have h0 : (h.lift i p (0 : Fin 3)).val = (i 0).val := rfl
    have h1 : (h.lift i p (1 : Fin 3)).val = p.val := rfl
    have h2 : (h.lift i p (2 : Fin 3)).val = (i 1).val := rfl
    have b0 : (i 0).val < 1024 := (i 0).isLt
    have b1 : p.val < 16 := p.isLt
    have b2 : (i 1).val < 2048 := (i 1).isLt
    funext a
    apply Fin.ext
    match a with
    | ⟨0, _⟩ =>
      show (((h.lift i p 0).val * 16 + (h.lift i p 1).val) * 2048 + (h.lift i p 2).val) / 2048 = 16 * (i 0).val + p.val
      rw [h0, h1, h2]; omega
    | ⟨1, _⟩ =>
      show (((h.lift i p 0).val * 16 + (h.lift i p 1).val) * 2048 + (h.lift i p 2).val) % 2048 = (i 1).val
      rw [h0, h1, h2]; omega
  rw [e]
  exact v5_eq x0 x1 (Cert.Spec.proxyRow (i 0) p) (i 1)

end Cert.ReferenceIdeal.RefValue

end
-- ==== Proof.lean ====
/-
  The certificate of a fused kernel that scores a bank of proxy vectors against a batch of queries, against its
  plain reference.

  Both programs compute, for queries d (2048 rows of 512) and a proxy bank w (16384 rows of 512, sixteen
  consecutive rows per class), the array y(c, b) = max over the sixteen proxies p of class c of the inner product
  of bank row 16c + p with query b scaled to unit length (the norm floored at a small constant ε). The kernel
  walks the bank four tiles at a time: at its first grid point it normalises the whole query block once into a
  scratch buffer (multiplying by the reciprocal of the floored norm), and at each of its four points it multiplies
  two half tiles of the bank against that scratch and takes each class's maximum, writing 256 result rows back.
  The reference divides by the floored norm, forms the whole 16384 × 2048 score matrix and reduces it.

  Over the extended reals the two agree index by index: the floored norm is at least ε > 0 whatever the query
  holds, so multiplying by its reciprocal is dividing by it; the changes of float format are the identity; the
  sums and maxima are the same sums and maxima, tiled differently. No ideal rewrite was applied to the kernel, so
  its idealization is its own text read at the ideal instance.

  The frames: the reference is a host program whose run is read off its operations. The kernel's two frames
  (at the word-level instance and at the ideal one) are one text, generic in the float instance: the body's run
  in its two control cases (first point, later points), the contents of the output's staging buffer and of the
  scratch point by point, the body obligation, and the launch of a pipeline whose two bank windows share one
  array, each holding half of its share.
-/
import proofs.«119591_g73735998537873_cont_9to1_m_286_38_alg».proof.Defs
import proofs.«119591_g73735998537873_cont_9to1_m_286_38_alg».proof.Proof.Gen.Pre_finite_inputs
import proofs.«119591_g73735998537873_cont_9to1_m_286_38_alg».proof.Proof.K.Launch
import proofs.«119591_g73735998537873_cont_9to1_m_286_38_alg».proof.Proof.KI.Launch
import proofs.«119591_g73735998537873_cont_9to1_m_286_38_alg».proof.Proof.KValue
import proofs.«119591_g73735998537873_cont_9to1_m_286_38_alg».proof.Proof.RefIsSpec

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Hand.frame m ρ

/-- So does the kernel read at the ideal instance. -/
theorem frame_kernelIdeal : Cert.frame_KernelIdeal := fun m ρ _ => Cert.KernelIdeal.Hand.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the two arguments both programs end with the result array at the one function
    of them: the kernel's four written-back blocks make it up, and the reference's operations compute it. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.final m c), (h c).2⟩) (Cert.KernelIdeal.Hand.run_value m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v7_eq, Cert.ReferenceIdeal.RefValue.ref_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
